-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000x128 : Shape := ⟨2, ![800000, 128]⟩
abbrev S800000 : Shape := ⟨1, ![800000]⟩
abbrev S100000 : Shape := ⟨1, ![100000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg7 : FVec F S256x128 .f32) (main_arg8 : FVec F S128 .f32) (main_arg9 : FVec F S128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg7
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_v33

def fn {F : FTy → Type} [FloatOps F] (main_arg0 : FVec F S100000x128 .f32) (main_arg1 : FVec F S800000x128 .f32) (main_arg2 : IVec S800000 32) (main_arg3 : IVec S800000 32) (main_arg4 : IVec S100000 32) (main_arg5 : FVec F S128x256 .f32) (main_arg6 : FVec F S256 .f32) (main_arg7 : FVec F S256x128 .f32) (main_arg8 : FVec F S128 .f32) (main_arg9 : FVec F S128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x256 .f32 := Host.absf main_arg5
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_v13 main_v16
-- ==== Kernel.lean ====
abbrev S100000x128 : Shape := ⟨2, ![100000, 128]⟩
abbrev S800000x128 : Shape := ⟨2, ![800000, 128]⟩
abbrev S800000 : Shape := ⟨1, ![800000]⟩
abbrev S100000 : Shape := ⟨1, ![100000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S4096 : Shape := ⟨1, ![4096]⟩
abbrev S100000x1 : Shape := ⟨2, ![100000, 1]⟩
abbrev S2000x128 : Shape := ⟨2, ![2000, 128]⟩
abbrev S2000x1 : Shape := ⟨2, ![2000, 1]⟩
abbrev S2000x256 : Shape := ⟨2, ![2000, 256]⟩
abbrev S1x256 : Shape := ⟨2, ![1, 256]⟩
abbrev S1x128 : Shape := ⟨2, ![1, 128]⟩
abbrev S2000 : Shape := ⟨1, ![2000]⟩

abbrev nBuf : Space → Nat
  | .hbm => 46
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S100000, .i32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S100000, .f32⟩
  | .hbm, ⟨27, _⟩ => ⟨S_, .f32⟩
  | .hbm, ⟨28, _⟩ => ⟨S4096, .f32⟩
  | .hbm, ⟨29, _⟩ => ⟨S100000x1, .i32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S_, .i32⟩
  | .hbm, ⟨36, _⟩ => ⟨S100000, .i32⟩
  | .hbm, ⟨37, _⟩ => ⟨S100000, .i1⟩
  | .hbm, ⟨38, _⟩ => ⟨S_, .i32⟩
  | .hbm, ⟨39, _⟩ => ⟨S100000, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S100000, .f32⟩
  | .hbm, ⟨44, _⟩ => ⟨S100000x1, .f32⟩
  | .hbm, ⟨45, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S_S4096 : S_.BroadcastsInDim S4096 (![] : Fin 0 → Fin S4096.rank)
  bcast_S100000_S100000x1_0 : S100000.BroadcastsInDim S100000x1 (![0] : Fin 1 → Fin S100000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S4096_S100000x1_S100000_n_0_0_1_wf : ScatterDims.WF S4096 S100000x1 S100000 [] [0] [0] 1
  gather_S4096_S100000x1_S100000_n_0_n_n_0_1_1_wf : GatherDims.WF S4096 S100000x1 S100000 [] [0] [] [0] [] 1 ![1]
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def gather_S4096_S100000x1_S100000_n_0_n_n_0_1_1 : GatherDims S4096 S100000x1 S100000 where
  offsetDims := []
  collapsedSliceDims := [0]
  operandBatchingDims := []
  startIndicesBatchingDims := []
  startIndexMap := [0]
  indexVectorDim := 1
  sliceSizes := ![1]
  wf := gather_S4096_S100000x1_S100000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v10) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S800000x128 : Shape := ⟨2, ![800000, 128]⟩
abbrev S800000 : Shape := ⟨1, ![800000]⟩
abbrev S100000 : Shape := ⟨1, ![100000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S100000x256 : Shape := ⟨2, ![100000, 256]⟩
abbrev S1x256 : Shape := ⟨2, ![1, 256]⟩
abbrev S1x128 : Shape := ⟨2, ![1, 128]⟩
abbrev S100000x1 : Shape := ⟨2, ![100000, 1]⟩
abbrev S4096 : Shape := ⟨1, ![4096]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S100000, .i32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S100000x256, .f32⟩
  | .hbm, ⟨26, _⟩ => ⟨S1x256, .f32⟩
  | .hbm, ⟨27, _⟩ => ⟨S100000x256, .f32⟩
  | .hbm, ⟨28, _⟩ => ⟨S100000x256, .f32⟩
  | .hbm, ⟨29, _⟩ => ⟨S_, .f32⟩
  | .hbm, ⟨30, _⟩ => ⟨S100000x256, .f32⟩
  | .hbm, ⟨31, _⟩ => ⟨S100000x256, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000, .f32⟩
  | .hbm, ⟨38, _⟩ => ⟨S100000x1, .f32⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000, .f32⟩
  | .hbm, ⟨67, _⟩ => ⟨S_, .f32⟩
  | .hbm, ⟨68, _⟩ => ⟨S4096, .f32⟩
  | .hbm, ⟨69, _⟩ => ⟨S100000x1, .i32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S_, .i32⟩
  | .hbm, ⟨76, _⟩ => ⟨S100000, .i32⟩
  | .hbm, ⟨77, _⟩ => ⟨S100000, .i1⟩
  | .hbm, ⟨78, _⟩ => ⟨S_, .i32⟩
  | .hbm, ⟨79, _⟩ => ⟨S100000, .i32⟩
  | .hbm, ⟨80, _⟩ => ⟨S100000, .i32⟩
  | .hbm, ⟨81, _⟩ => ⟨S100000, .i32⟩
  | .hbm, ⟨82, _⟩ => ⟨S100000x1, .i32⟩
  | .hbm, ⟨83, _⟩ => ⟨S100000, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_cst : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call1_cst : Ref sig .tc := ⟨.hbm, 87, rfl⟩
abbrev main_call1_v0 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000 : S_.BroadcastsInDim S100000 (![] : Fin 0 → Fin S100000.rank)
  bcast_S_S4096 : S_.BroadcastsInDim S4096 (![] : Fin 0 → Fin S4096.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  scatter_S4096_S100000x1_S100000_n_0_0_1_wf : ScatterDims.WF S4096 S100000x1 S100000 [] [0] [0] 1
  gather_S4096_S100000x1_S100000_n_0_n_n_0_1_1_wf : GatherDims.WF S4096 S100000x1 S100000 [] [0] [] [0] [] 1 ![1]

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def gather_S4096_S100000x1_S100000_n_0_n_n_0_1_1 : GatherDims S4096 S100000x1 S100000 where
  offsetDims := []
  collapsedSliceDims := [0]
  operandBatchingDims := []
  startIndicesBatchingDims := []
  startIndexMap := [0]
  indexVectorDim := 1
  sliceSizes := ![1]
  wf := gather_S4096_S100000x1_S100000_n_0_n_n_0_1_1_wf

class Facts : Prop extends Facts₀ where

variable [Facts]
-- ==== Proof.RowSpec.lean ====
/-
  One node's row of the block, as a function on the extended reals.

  The aggregated message row `x` (128 features) goes through a two-layer perceptron: 256 hidden units
  `max (x · W1[:, k] + b1[k]) 0`, then 128 outputs `h[j] = hidden · W2[:, j] + b2[j]`. The outputs are normalised over the
  128 features: `mean h = (Σ h) / 128`, `centered h j = h[j] - mean h`, `variance h = (Σ (centered h)^2) / 128`, and
  `normed h j = centered h j · rsqrt (variance h + ε) · γ[j] + β[j]`. The row is then scaled by the node's graph factor `s`
  (one over the square root of its graph's node count), rectified, and the node's own feature is added back.

  The three float literals stay as their words: zero, 128 and ε = 0x3727C5AC (the float nearest 1e-5). Both programs spell
  each with the same word, so none is ever evaluated.
-/
import Idealize.ShloMosaic.PureOps.Ideal
import Idealize.ShloMosaic.PureOps.Ideal.Laws
import Idealize.ShloMosaic.Lib.ValueIdx

noncomputable section

namespace Cert.GnnRow

open Idealize.ShloMosaic Idealize.ShloMosaic.ValueIdx

/-- An `[a, b]` array of extended reals. -/
abbrev Mat (a b : ℕ) : Type := (⟨2, ![a, b]⟩ : Shape).Idx → EReal

/-- A length-`a` array of extended reals. -/
abbrev Vect (a : ℕ) : Type := (⟨1, ![a]⟩ : Shape).Idx → EReal

/-- Hidden unit `k` of a row: the affine map of the row, rectified. -/
def hidden (x : Fin 128 → EReal) (W1 : Mat 128 256) (b1 : Vect 256) (k : Fin 256) : EReal :=
  max ((∑ a : Fin 128, x a * W1 (ix2 a k)) + b1 (ix1 k)) (Ideal.ofBits .f32 0x00000000#32)

/-- Output `j` of the perceptron on a row. -/
def lin (x : Fin 128 → EReal) (W1 : Mat 128 256) (b1 : Vect 256) (W2 : Mat 256 128) (b2 : Vect 128) (j : Fin 128) : EReal :=
  (∑ k : Fin 256, hidden x W1 b1 k * W2 (ix2 k j)) + b2 (ix1 j)

/-- The mean of a row of 128 features: its sum divided by the float 128. -/
def mean (h : Fin 128 → EReal) : EReal :=
  Ideal.div (∑ j : Fin 128, h j) (Ideal.ofBits .f32 0x43000000#32)

/-- Feature `j` of a row with the row's mean taken off. -/
def centered (h : Fin 128 → EReal) (j : Fin 128) : EReal := h j - mean h

/-- The variance of a row: the mean of the squared centered features. -/
def variance (h : Fin 128 → EReal) : EReal :=
  Ideal.div (∑ j : Fin 128, centered h j * centered h j) (Ideal.ofBits .f32 0x43000000#32)

/-- The centered feature times the inverse standard deviation (ε added under the root), before the scale `γ`. -/
def scaled (h : Fin 128 → EReal) (j : Fin 128) : EReal :=
  centered h j * Ideal.rsqrt (variance h + Ideal.ofBits .f32 0x3727C5AC#32)

/-- What a node's row ends as at feature `j`: the normalised perceptron output times `γ` plus `β`, scaled by the graph
    factor `s`, rectified, plus the node's own feature `nf`. -/
def rowOut (x : Fin 128 → EReal) (W1 : Mat 128 256) (b1 : Vect 256) (W2 : Mat 256 128) (b2 γ β : Vect 128)
    (s nf : EReal) (j : Fin 128) : EReal :=
  max ((scaled (lin x W1 b1 W2 b2) j * γ (ix1 j) + β (ix1 j)) * s) (Ideal.ofBits .f32 0x00000000#32) + nf

end Cert.GnnRow

end
-- ==== Proof.LibColumnForms.lean ====
/-
  Column and leading-axis layout steps read at an index. A length-`a` vector cast to an `[a, 1]` column keeps its
  entries; a column broadcast to `[a, b]` repeats its entry along each row; a `[1, b, c]` array broadcast to
  `[a, b, c]` repeats its one slab. These are the steps behind `sum(keepdims=True)` added to a transposed column,
  and behind `b[None, :, :]` paired against every row of another array.
-/
import Idealize.ShloMosaic.Lib.Pipeline.Value
import Idealize.ShloMosaic.Lib.ValueIdx

namespace Cert.LibColumnForms

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibColumnForms
-- ==== Proof.LibRowForms.lean ====
/-
  Row sums and the keepdims layout steps of a normalisation over the last axis, read at an index.

  A sum over the last axis of an `[R, D]` vector, or of an `[A, B, D]` host array, is at the exact instance the
  finite sum of that row's entries. A `[A, B]` array laid out as an `[A, B, 1]` column keeps its entries; an
  `[A, B, 1]` column stretched along the last axis repeats its entry; a scalar stretched to any shape reads the
  scalar. A `[A, B, C]` array recast to `[A * B, C]` keeps row-major order, so row `a * B + b` of the matrix is
  row `(a, b)` of the array, and back.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRowForms

open Idealize.ShloMosaic Idealize.ShloMosaic.ValueIdx

/-- A lane sum over the last axis of an `[R, D]` vector: entry `p` is the sum of row `p`. -/
theorem multiReduction_add_rows {R D : Nat} {φ : FTy} (v : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ)
    (p : Fin R) :
    multiReduction .add [1] ⟨1, ![R]⟩ v acc h hφ hacc (ix1 p) = ∑ k : Fin D, v (ix2 p k) := by
  rw [Ideal.multiReduction_add_single]
  refine Finset.sum_congr rfl fun k _ => congrArg v ?_
  funext c
  match c with
  | ⟨0, _⟩ => exact Fin.ext rfl
  | ⟨1, _⟩ => exact Fin.ext rfl

/-- A host sum over the last axis of an `[A, B, D]` array from a scalar initial value: entry `(a, b)` is the initial
    value plus the sum of row `(a, b)`. -/
theorem hostReduceAdd_rows3 {A B D : Nat} {φ : FTy} (h : (⟨3, ![A, B, D]⟩ : Shape).ReducesTo [2] ⟨2, ![A, B]⟩)
    (hu : 0 < (⟨0, ![]⟩ : Shape).numel) (x : FVec Ideal ⟨3, ![A, B, D]⟩ φ) (v : (⟨0, ![]⟩ : Shape).Idx → Ideal φ)
    (a : Fin A) (b : Fin B) :
    Host.reduceAdd (F := Ideal) x v h hu (ix2 a b) = v ix0 + ∑ k : Fin D, x (ix3 a b k) := by
  have hR : (⟨3, ![A, B, D]⟩ : Shape).Reduces [2] ⟨2, ![A, B]⟩ := ⟨h.1, (Nat.zero_lt_two : 0 < 2), h.2⟩
  unfold Host.reduceAdd
  rw [Ideal.hostReduceAdd_def, Ideal.hostReduceAdd_single h hR, congrArg v (eq_ix0 (Shape.Idx.first hu))]
  congr 1
  refine Finset.sum_congr rfl fun k _ => congrArg x ?_
  funext c
  match c with
  | ⟨0, _⟩ => exact Fin.ext rfl
  | ⟨1, _⟩ => exact Fin.ext rfl
  | ⟨2, _⟩ => exact Fin.ext rfl

variable {α : Type}

/-- A scalar stretched to any shape reads the scalar everywhere. -/
theorem broadcastInDim_scalar_apply (t : Shape) (dims : Fin (⟨0, ![]⟩ : Shape).rank → Fin t.rank)
    (h : (⟨0, ![]⟩ : Shape).BroadcastsInDim t dims) (v : (⟨0, ![]⟩ : Shape).Idx → α) (j : t.Idx) :
    broadcastInDim t dims h v j = v ix0 :=
  congrArg v (eq_ix0 _)

/-- An `[A, B]` array laid out as an `[A, B, 1]` column: entry `(a, b, u)` is entry `(a, b)`. -/
theorem broadcastInDim_ab_ab1_apply {A B : Nat}
    (h : (⟨2, ![A, B]⟩ : Shape).BroadcastsInDim ⟨3, ![A, B, 1]⟩ (![0, 1] : Fin 2 → Fin (⟨3, ![A, B, 1]⟩ : Shape).rank))
    (x : (⟨2, ![A, B]⟩ : Shape).Idx → α) (a : Fin A) (b : Fin B) (u : Fin 1) :
    broadcastInDim ⟨3, ![A, B, 1]⟩ ![0, 1] h x (ix3 a b u) = x (ix2 a b) := by
  refine broadcastInDim_apply _ h x _ _ fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl

/-- An `[A, B, 1]` column stretched along the last axis: entry `(a, b, c)` is entry `(a, b, 0)`. -/
theorem broadcastInDim_ab1_abc_apply {A B C : Nat}
    (h : (⟨3, ![A, B, 1]⟩ : Shape).BroadcastsInDim ⟨3, ![A, B, C]⟩ (![0, 1, 2] : Fin 3 → Fin (⟨3, ![A, B, C]⟩ : Shape).rank))
    (x : (⟨3, ![A, B, 1]⟩ : Shape).Idx → α) (a : Fin A) (b : Fin B) (c : Fin C) :
    broadcastInDim ⟨3, ![A, B, C]⟩ ![0, 1, 2] h x (ix3 a b c) = x (ix3 a b (0 : Fin 1)) := by
  refine broadcastInDim_apply _ h x _ _ fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

/-- An `[A, B, C]` array recast to `[A * B, C]`: row `a * B + b` of the matrix is row `(a, b)` of the array. -/
theorem shapeCast_abc_rc_apply {A B C R : Nat} (x : (⟨3, ![A, B, C]⟩ : Shape).Idx → α)
    (h : (⟨3, ![A, B, C]⟩ : Shape).ShapeCasts ⟨2, ![R, C]⟩) (a : Fin A) (b : Fin B) (c : Fin C) (r : Fin R)
    (hr : r.val = a.val * B + b.val) :
    shapeCast ⟨2, ![R, C]⟩ x h (ix2 r c) = x (ix3 a b c) :=
  shapeCast_apply x h _ _ (by
    rw [Shape.rowMajor_val_three, Shape.rowMajor_val_two]
    show (a.val * B + b.val) * C + c.val = r.val * C + c.val
    rw [hr])

/-- An `[A * B, C]` matrix recast to `[A, B, C]`: row `(a, b)` of the array is row `a * B + b` of the matrix. -/
theorem shapeCast_rc_abc_apply {A B C R : Nat} (x : (⟨2, ![R, C]⟩ : Shape).Idx → α)
    (h : (⟨2, ![R, C]⟩ : Shape).ShapeCasts ⟨3, ![A, B, C]⟩) (a : Fin A) (b : Fin B) (c : Fin C) (r : Fin R)
    (hr : r.val = a.val * B + b.val) :
    shapeCast ⟨3, ![A, B, C]⟩ x h (ix3 a b c) = x (ix2 r c) :=
  shapeCast_apply x h _ _ (by
    rw [Shape.rowMajor_val_three, Shape.rowMajor_val_two]
    show r.val * C + c.val = (a.val * B + b.val) * C + c.val
    rw [hr])

end Cert.LibRowForms

end
-- ==== Proof.KernelRow.lean ====
/-
  The kernel's block at an entry is the row function of the block's row.

  The body computes, on a block of 2000 rows: the hidden layer `hidV` (a matrix product with W1, the bias b1 along each row,
  a rectifier), the perceptron output `linV` (a matrix product with W2, the bias b2), the mean of each row `rowMeanV` (a lane
  sum laid out as a column and divided by 128), the centered block `cenV`, and `lnV`: the centered block times the inverse
  root of the row variance plus ε, times γ along each row. The value the body normalises is the composition of the five (`pay2_eq`): the row mean is
  taken twice, of the perceptron output and of its squared centered form, so it is one function applied twice.

  Read at the entry `(p, q)` over the extended reals (a change of float format is the identity, a matrix product into a zero
  accumulator and a lane sum are plain finite sums) each is the row function of Proof/RowSpec.lean at row `p`: the row of a
  block is all a row's output depends on.
-/
import proofs.«135149_j29068338659622_1_alg».proof.Proof.Gen.KernelIdeal.Skeleton
import proofs.«135149_j29068338659622_1_alg».proof.Proof.RowSpec
import proofs.«135149_j29068338659622_1_alg».proof.Proof.LibColumnForms
import proofs.«135149_j29068338659622_1_alg».proof.Proof.LibRowForms
import Idealize.ShloMosaic.Lib.ValueLayout
import Idealize.ShloMosaic.Lib.ValueIdx
import Idealize.ShloMosaic.Lib.Pipeline.Value
import Idealize.ShloMosaic.PureOps.Ideal.Laws

noncomputable section

namespace Cert.GnnKernelRow

open Idealize.ShloMosaic Idealize.ShloMosaic.ValueIdx Cert.KernelIdeal Cert.KernelIdeal.Gen Cert.GnnRow
open Cert.LibColumnForms Cert.LibRowForms

/-! ## The payload as five block functions -/

section Blocks

variable {F : FTy → Type} [FloatOps F]

/-- The hidden layer on a block: the rows times W1, plus b1 along each row, rectified. -/
def hidV (v0 : Vec F S2000x128 .f32) (v3 : Vec F S128x256 .f32) (v6 : Vec F S256 .f32) : FVec F S2000x256 .f32 :=
  have v1 : FVec F S2000x128 .f32 := shapeCast S2000x128 v0 shapeCasts_S2000x128_S2000x128
  have v2 : FVec F S2000x128 .bf16 := truncf .bf16 v1 bitsLt_bf16_f32
  have v4 : FVec F S128x256 .bf16 := truncf .bf16 v3 bitsLt_bf16_f32
  have cst : FVec F S2000x256 .f32 := constant S2000x256 .f32 0x00000000#32
  have v5 : FVec F S2000x256 .f32 := matmul dot_S2000x128_S128x256_S2000x256_1_0_0_1_n_n none v2 v4 cst
  have v7 : FVec F S1x256 .f32 := shapeCast S1x256 v6 shapeCasts_S256_S1x256
  have v8 : FVec F S2000x256 .f32 := broadcastTo S2000x256 v7 broadcasts_S1x256_S2000x256
  have v9 : FVec F S2000x256 .f32 := addf v5 v8
  have cst_4 : F .f32 := Scalar.ofBits .f32 0x00000000#32
  have v10 : FVec F S2000x256 .f32 := broadcast S2000x256 cst_4
  maximumf v9 v10

/-- The perceptron's output on a block: the hidden layer times W2, plus b2 along each row. -/
def linV (v11 : FVec F S2000x256 .f32) (v13 : Vec F S256x128 .f32) (v16 : Vec F S128 .f32) : FVec F S2000x128 .f32 :=
  have v12 : FVec F S2000x256 .bf16 := truncf .bf16 v11 bitsLt_bf16_f32
  have v14 : FVec F S256x128 .bf16 := truncf .bf16 v13 bitsLt_bf16_f32
  have cst_7 : FVec F S2000x128 .f32 := constant S2000x128 .f32 0x00000000#32
  have v15 : FVec F S2000x128 .f32 := matmul dot_S2000x256_S256x128_S2000x128_1_0_0_1_n_n none v12 v14 cst_7
  have v17 : FVec F S1x128 .f32 := shapeCast S1x128 v16 shapeCasts_S128_S1x128
  have v18 : FVec F S2000x128 .f32 := broadcastTo S2000x128 v17 broadcasts_S1x128_S2000x128
  addf v15 v18

/-- The mean of each row of a block, as a column: the lane sum divided by the float 128. -/
def rowMeanV (v : FVec F S2000x128 .f32) : FVec F S2000x1 .f32 :=
  have v20 : FVec F S2000 .f32 := multiReduction .add [1] S2000 v 0x00000000#32 reduces_S2000x128_S2000 (.inl rfl) rfl
  have v21 : FVec F S2000x1 .f32 := shapeCast S2000x1 v20 shapeCasts_S2000_S2000x1
  have cst_10 : F .f32 := Scalar.ofBits .f32 0x43000000#32
  have v22 : FVec F S2000x1 .f32 := broadcast S2000x1 cst_10
  divf v21 v22

/-- A block with each row's mean taken off. -/
def cenV (v : FVec F S2000x128 .f32) : FVec F S2000x128 .f32 :=
  subf v (broadcastTo S2000x128 (rowMeanV v) broadcasts_S2000x1_S2000x128)

/-- The normalised block before β: the centered block times the inverse root of the row variance plus ε, times γ. -/
def lnV (v19 : FVec F S2000x128 .f32) (v36 : Vec F S128 .f32) : FVec F S2000x128 .f32 :=
  have v25 : FVec F S2000x128 .f32 := cenV v19
  have v30 : FVec F S2000x1 .f32 := rowMeanV (mulf v25 v25)
  have cst_13 : F .f32 := Scalar.ofBits .f32 0x3727C5AC#32
  have v31 : FVec F S2000x1 .f32 := broadcast S2000x1 cst_13
  have v32 : FVec F S2000x1 .f32 := addf v30 v31
  have v33 : FVec F S2000x1 .f32 := rsqrt v32
  have v34 : FVec F S2000x128 .f32 := broadcastTo S2000x128 v33 broadcasts_S2000x1_S2000x128
  have v35 : FVec F S2000x128 .f32 := mulf v25 v34
  have v37 : FVec F S1x128 .f32 := shapeCast S1x128 v36 shapeCasts_S128_S1x128
  have v38 : FVec F S2000x128 .f32 := broadcastTo S2000x128 v37 broadcasts_S1x128_S2000x128
  mulf v35 v38

/-- The body's first payload is the composition of the five. -/
theorem pay2_eq (v0 : Vec F S2000x128 .f32) (v3 : Vec F S128x256 .f32) (v6 : Vec F S256 .f32) (v13 : Vec F S256x128 .f32)
    (v16 : Vec F S128 .f32) (v36 : Vec F S128 .f32) :
    k0_pay2 v0 v3 v6 v13 v16 v36 = lnV (linV (hidV v0 v3 v6) v13 v16) v36 := rfl

end Blocks

/-! ## The two matrix products at an entry -/

theorem lhs_w1_0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_w1_1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem rhs_w1_0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem rhs_w1_1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The matrix product into a zero accumulator, read at `(p, c)`: the sum over the contracted axis of the products. -/
theorem matmul_w1_apply (l : FVec Ideal S2000x128 .bf16) (r : FVec Ideal S128x256 .bf16) (p : Fin 2000) (c : Fin 256) :
    matmul dot_S2000x128_S128x256_S2000x256_1_0_0_1_n_n none l r (constant S2000x256 .f32 0x00000000#32) (ix2 p c) = ∑ k : Fin 128, l (ix2 p k) * r (ix2 k c) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p c) ((ValueIdx.contrEquiv1 dot_S2000x128_S128x256_S2000x256_1_0_0_1_n_n 128 rfl rfl).symm k) = ix2 p k := funext fun a => Fin.ext (by
    match a with
    | ⟨0, _⟩ => exact lhs_w1_0 _ _
    | ⟨1, _⟩ => exact (lhs_w1_1 _ _).trans hk)
  have er : dot_S2000x128_S128x256_S2000x256_1_0_0_1_n_n.rhsIdx (ix2 p c) ((ValueIdx.contrEquiv1 dot_S2000x128_S128x256_S2000x256_1_0_0_1_n_n 128 rfl rfl).symm k) = ix2 k c := funext fun a => Fin.ext (by
    match a with
    | ⟨0, _⟩ => exact (rhs_w1_0 _ _).trans hk
    | ⟨1, _⟩ => exact rhs_w1_1 _ _)
  rw [el, er]

theorem lhs_w2_0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_w2_1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem rhs_w2_0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem rhs_w2_1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The matrix product into a zero accumulator, read at `(p, c)`: the sum over the contracted axis of the products. -/
theorem matmul_w2_apply (l : FVec Ideal S2000x256 .bf16) (r : FVec Ideal S256x128 .bf16) (p : Fin 2000) (c : Fin 128) :
    matmul dot_S2000x256_S256x128_S2000x128_1_0_0_1_n_n none l r (constant S2000x128 .f32 0x00000000#32) (ix2 p c) = ∑ k : Fin 256, l (ix2 p k) * r (ix2 k c) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p c) ((ValueIdx.contrEquiv1 dot_S2000x256_S256x128_S2000x128_1_0_0_1_n_n 256 rfl rfl).symm k) = ix2 p k := funext fun a => Fin.ext (by
    match a with
    | ⟨0, _⟩ => exact lhs_w2_0 _ _
    | ⟨1, _⟩ => exact (lhs_w2_1 _ _).trans hk)
  have er : dot_S2000x256_S256x128_S2000x128_1_0_0_1_n_n.rhsIdx (ix2 p c) ((ValueIdx.contrEquiv1 dot_S2000x256_S256x128_S2000x128_1_0_0_1_n_n 256 rfl rfl).symm k) = ix2 k c := funext fun a => Fin.ext (by
    match a with
    | ⟨0, _⟩ => exact (rhs_w2_0 _ _).trans hk
    | ⟨1, _⟩ => exact rhs_w2_1 _ _)
  rw [el, er]

/-! ## The five block functions at an entry -/

/-- A length-`b` vector laid along every row of a block reads, at `(p, c)`, its entry `c`. -/
theorem alongRows_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Hidden unit `k` of block row `p` is the row function's hidden unit on that row. -/
theorem hidV_apply (v0 : FVec Ideal S2000x128 .f32) (v3 : FVec Ideal S128x256 .f32) (v6 : FVec Ideal S256 .f32) (p : Fin 2000) (k : Fin 256) :
    hidV (F := Ideal) v0 v3 v6 (ix2 p k) = hidden (fun a => v0 (ix2 p a)) v3 v6 k := by
  have hm := matmul_w1_apply (truncf .bf16 (shapeCast S2000x128 v0 shapeCasts_S2000x128_S2000x128 : FVec Ideal S2000x128 .f32) bitsLt_bf16_f32)
    (truncf .bf16 v3 bitsLt_bf16_f32) p k
  have hb := alongRows_apply (a := 2000) v6 shapeCasts_S256_S1x256 broadcasts_S1x256_S2000x256 p k
  have h0 : (shapeCast S2000x128 v0 shapeCasts_S2000x128_S2000x128 : FVec Ideal S2000x128 .f32) = v0 := shapeCast_self v0 _
  show max (matmul dot_S2000x128_S128x256_S2000x256_1_0_0_1_n_n none _ _ _ (ix2 p k) + broadcastTo S2000x256 (shapeCast S1x256 v6 shapeCasts_S256_S1x256) broadcasts_S1x256_S2000x256 (ix2 p k)) (Ideal.ofBits .f32 0x00000000#32) = _
  rw [hm, hb, h0]
  rfl

/-- Output `j` of block row `p` is the perceptron's output on that row. -/
theorem linV_apply (v0 : FVec Ideal S2000x128 .f32) (v3 : FVec Ideal S128x256 .f32) (v6 : FVec Ideal S256 .f32)
    (v13 : FVec Ideal S256x128 .f32) (v16 : FVec Ideal S128 .f32) (p : Fin 2000) (j : Fin 128) :
    linV (F := Ideal) (hidV (F := Ideal) v0 v3 v6) v13 v16 (ix2 p j) = lin (fun a => v0 (ix2 p a)) v3 v6 v13 v16 j := by
  have hm := matmul_w2_apply (truncf .bf16 (hidV (F := Ideal) v0 v3 v6) bitsLt_bf16_f32) (truncf .bf16 v13 bitsLt_bf16_f32) p j
  have hb := alongRows_apply (a := 2000) v16 shapeCasts_S128_S1x128 broadcasts_S1x128_S2000x128 p j
  show matmul dot_S2000x256_S256x128_S2000x128_1_0_0_1_n_n none _ _ _ (ix2 p j) + broadcastTo S2000x128 (shapeCast S1x128 v16 shapeCasts_S128_S1x128) broadcasts_S1x128_S2000x128 (ix2 p j) = _
  rw [hm, hb]
  unfold lin
  refine congrArg (· + v16 (ix1 j)) (Finset.sum_congr rfl fun k _ => ?_)
  show hidV (F := Ideal) v0 v3 v6 (ix2 p k) * v13 (ix2 k j) = _
  rw [hidV_apply]

/-- The mean column of a block at row `p`: the row's sum divided by the float 128. -/
theorem rowMeanV_apply (v : FVec Ideal S2000x128 .f32) (p : Fin 2000) :
    rowMeanV v (ix2 p (0 : Fin 1)) = Ideal.div (∑ j : Fin 128, v (ix2 p j)) (Ideal.ofBits .f32 0x43000000#32) :=
  congrArg (fun z => Ideal.div z (Ideal.ofBits .f32 0x43000000#32))
    ((shapeCast_a_a1_apply (multiReduction .add [1] S2000 v 0x00000000#32 reduces_S2000x128_S2000 (.inl rfl) rfl) shapeCasts_S2000_S2000x1 p 0).trans
      (multiReduction_add_rows v 0x00000000#32 reduces_S2000x128_S2000 (.inl rfl) rfl p))

/-- The centered block at `(p, q)` is the centered feature of row `p`. -/
theorem cenV_apply (v : FVec Ideal S2000x128 .f32) (p : Fin 2000) (q : Fin 128) :
    cenV v (ix2 p q) = centered (fun j => v (ix2 p j)) q :=
  congrArg (fun z => v (ix2 p q) - z)
    ((broadcastTo_a1_ab_apply (rowMeanV v) broadcasts_S2000x1_S2000x128 p q).trans (rowMeanV_apply v p))

/-- The normalised block at `(p, q)`: row `p`'s centered feature over its standard deviation, times γ. -/
theorem lnV_apply (v19 : FVec Ideal S2000x128 .f32) (v36 : FVec Ideal S128 .f32) (p : Fin 2000) (q : Fin 128) :
    lnV v19 v36 (ix2 p q) = scaled (fun j => v19 (ix2 p j)) q * v36 (ix1 q) := by
  have hvar : rowMeanV (mulf (cenV v19) (cenV v19)) (ix2 p (0 : Fin 1)) = variance (fun j => v19 (ix2 p j)) := by
    refine (rowMeanV_apply _ p).trans ?_
    unfold variance
    refine congrArg (fun z => Ideal.div z (Ideal.ofBits .f32 0x43000000#32)) (Finset.sum_congr rfl fun j _ => ?_)
    show cenV v19 (ix2 p j) * cenV v19 (ix2 p j) = _
    rw [cenV_apply]
  have hr : broadcastTo S2000x128 (rsqrt (addf (rowMeanV (mulf (cenV v19) (cenV v19))) (broadcast S2000x1 (Scalar.ofBits .f32 0x3727C5AC#32)))) broadcasts_S2000x1_S2000x128 (ix2 p q)
      = Ideal.rsqrt (variance (fun j => v19 (ix2 p j)) + Ideal.ofBits .f32 0x3727C5AC#32) := by
    refine (broadcastTo_a1_ab_apply _ broadcasts_S2000x1_S2000x128 p q).trans ?_
    show Ideal.rsqrt (rowMeanV (mulf (cenV v19) (cenV v19)) (ix2 p (0 : Fin 1)) + Ideal.ofBits .f32 0x3727C5AC#32) = _
    rw [hvar]
  have hg := alongRows_apply (a := 2000) v36 shapeCasts_S128_S1x128 broadcasts_S1x128_S2000x128 p q
  show cenV v19 (ix2 p q) * broadcastTo S2000x128 (rsqrt (addf (rowMeanV (mulf (cenV v19) (cenV v19))) (broadcast S2000x1 (Scalar.ofBits .f32 0x3727C5AC#32)))) broadcasts_S2000x1_S2000x128 (ix2 p q)
      * broadcastTo S2000x128 (shapeCast S1x128 v36 shapeCasts_S128_S1x128) broadcasts_S1x128_S2000x128 (ix2 p q) = _
  rw [hr, hg, cenV_apply]
  rfl

/-! ## The stored block at an entry -/

/-- The stored payload at `(p, q)`: the first payload plus β, times the row's graph factor, rectified, plus the node's feature. -/
theorem pay1_apply (v39 : FVec Ideal S2000x128 .f32) (v40 : FVec Ideal S128 .f32) (v44 : FVec Ideal S2000x1 .f32)
    (v50 : FVec Ideal S2000x128 .f32) (p : Fin 2000) (q : Fin 128) :
    k0_pay1 (F := Ideal) v39 v40 v44 v50 (ix2 p q)
      = max ((v39 (ix2 p q) + v40 (ix1 q)) * v44 (ix2 p (0 : Fin 1))) (Ideal.ofBits .f32 0x00000000#32) + v50 (ix2 p q) := by
  have hb := alongRows_apply (a := 2000) v40 shapeCasts_S128_S1x128 broadcasts_S1x128_S2000x128 p q
  have hs : broadcastTo S2000x128 (shapeCast S2000x1 v44 shapeCasts_S2000x1_S2000x1) broadcasts_S2000x1_S2000x128 (ix2 p q) = v44 (ix2 p (0 : Fin 1)) := by
    rw [shapeCast_self]
    exact broadcastTo_a1_ab_apply v44 broadcasts_S2000x1_S2000x128 p q
  show max ((v39 (ix2 p q) + broadcastTo S2000x128 (shapeCast S1x128 v40 shapeCasts_S128_S1x128) broadcasts_S1x128_S2000x128 (ix2 p q))
      * broadcastTo S2000x128 (shapeCast S2000x1 v44 shapeCasts_S2000x1_S2000x1) broadcasts_S2000x1_S2000x128 (ix2 p q)) (Ideal.ofBits .f32 0x00000000#32) + v50 (ix2 p q) = _
  rw [hb, hs]

/-- THE BLOCK AT AN ENTRY: what the body stores at `(p, q)`, from the nine loaded blocks, is the row function of row `p`
    of the aggregate block, with the row's graph factor and the node's own feature. -/
theorem stored_apply (x0 x1 : FVec Ideal S2000x128 .f32) (x2 : FVec Ideal S2000x1 .f32) (x3 : FVec Ideal S128x256 .f32)
    (x4 : FVec Ideal S256 .f32) (x5 : FVec Ideal S256x128 .f32) (x6 x7 x8 : FVec Ideal S128 .f32) (p : Fin 2000) (q : Fin 128) :
    k0_pay1 (F := Ideal) (k0_pay2 (F := Ideal) x0 x3 x4 x5 x6 x7) x8 x2 x1 (ix2 p q)
      = rowOut (fun a => x0 (ix2 p a)) x3 x4 x5 x6 x7 x8 (x2 (ix2 p (0 : Fin 1))) (x1 (ix2 p q)) q := by
  rw [pay1_apply, pay2_eq, lnV_apply]
  unfold rowOut
  have hl : (fun j => linV (F := Ideal) (hidV (F := Ideal) x0 x3 x4) x5 x6 (ix2 p j)) = lin (fun a => x0 (ix2 p a)) x3 x4 x5 x6 :=
    funext fun j => linV_apply x0 x3 x4 x5 x6 p j
  rw [hl]

end Cert.GnnKernelRow

end
-- ==== Proof.ArraySpec.lean ====
/-
  The whole result array: the row function of Proof/RowSpec.lean applied at every node.

  Entry `(r, j)` of the `[100000, 128]` result depends on row `r` of the aggregated messages, on the node's graph factor
  `s[r, 0]`, on the node's own feature `nf[r, j]` and on the weights: nothing of any other row.
-/
import proofs.«135149_j29068338659622_1_alg».proof.Proof.RowSpec

noncomputable section

namespace Cert.GnnRow

open Idealize.ShloMosaic Idealize.ShloMosaic.ValueIdx

/-- The node an index of the result belongs to. -/
def rowOf (i : (⟨2, ![100000, 128]⟩ : Shape).Idx) : Fin 100000 := ⟨(i 0).val, (i 0).isLt⟩

/-- The feature an index of the result names. -/
def colOf (i : (⟨2, ![100000, 128]⟩ : Shape).Idx) : Fin 128 := ⟨(i 1).val, (i 1).isLt⟩

/-- The result array as one function of the aggregated messages `agg`, the node features `nf`, the column of graph
    factors `s` and the weights. -/
def wholeOut (agg nf : Mat 100000 128) (s : Mat 100000 1) (W1 : Mat 128 256) (b1 : Vect 256) (W2 : Mat 256 128)
    (b2 γ β : Vect 128) : Mat 100000 128 := fun i =>
  rowOut (fun a => agg (ix2 (rowOf i) a)) W1 b1 W2 b2 γ β (s (ix2 (rowOf i) (0 : Fin 1))) (nf i) (colOf i)

/-- At `(r, j)` it is the row function of row `r`. -/
theorem wholeOut_apply (agg nf : Mat 100000 128) (s : Mat 100000 1) (W1 : Mat 128 256) (b1 : Vect 256) (W2 : Mat 256 128)
    (b2 γ β : Vect 128) (r : Fin 100000) (j : Fin 128) :
    wholeOut agg nf s W1 b1 W2 b2 γ β (ix2 r j)
      = rowOut (fun a => agg (ix2 r a)) W1 b1 W2 b2 γ β (s (ix2 r (0 : Fin 1))) (nf (ix2 r j)) j := rfl

end Cert.GnnRow

end
-- ==== Proof.KernelBlocks.lean ====
/-
  From blocks to the array.

  The result array is written back block by block: grid point `t` of 50 writes rows `2000 t … 2000 t + 1999`. The aggregate,
  the node features and the column of graph factors are staged by the same rows; the six weight arrays are staged whole at
  every point. So what point `t` writes back is block `t` of the whole-array function of Proof/ArraySpec.lean taken at the
  arrays as the region finds them (`flushed_eq`); the 50 blocks cover every row (row `r` lies in the block of point
  `r / 2000`), hence the array ends as that function (`final`), and the kernel's run is read with it (`run`).
-/
import proofs.«135149_j29068338659622_1_alg».proof.Proof.Gen.KernelIdeal.Value
import proofs.«135149_j29068338659622_1_alg».proof.Proof.KernelRow
import proofs.«135149_j29068338659622_1_alg».proof.Proof.ArraySpec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.GnnKernelBlocks

open Cert.KernelIdeal Cert.KernelIdeal.Gen Cert.KernelIdeal.Value Cert.GnnRow Cert.GnnKernelRow

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The index maps over the grid: the four row-blocked windows sit at block `(t, 0)`, the six weight windows at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 1) = 0
    ∧ win0_9.index t (0 : Fin 2) = t.val ∧ win0_9.index t (1 : Fin 2) = 0 :=
  (by decide +kernel : ∀ t : Fin grid0.N, _)

/-- Row `p` of the block at point `t` is row `2000 t + p` of the array. -/
def arow (t : Fin cfg0.N) (p : Fin 2000) : Fin 100000 :=
  ⟨2000 * t.val + p.val, by
    have ht : t.val < 50 := lt_of_lt_of_eq t.isLt N_0
    have hp := p.isLt
    omega⟩

/-! ## A staged block is rows of its array -/

/-- The aggregate window's block at point `t`, row `p`: row `2000 t + p` of the array it stages. -/
theorem read_rows0 (t : Fin cfg0.N) (A : FVec Ideal S100000x128 .f32) (p : Fin 2000) (a : Fin 128) :
    ((cfg0.win 0).blk t).view.read (Elt Ideal) A (ix2 p a) = A (ix2 (arow t p) a) := by
  have hi := idx_facts t
  rw [View.read_apply]
  show A _ = A _
  congr 1
  funext ax
  apply Fin.ext
  match ax with
  | ⟨0, _⟩ => show win0_0.index t (0 : Fin 2) * 2000 + 1 * p.val = 2000 * t.val + p.val; rw [hi.1]; omega
  | ⟨1, _⟩ => show win0_0.index t (1 : Fin 2) * 128 + 1 * a.val = a.val; rw [hi.2.1]; omega

/-- The node-feature window's block at point `t`, row `p`: row `2000 t + p` of the array it stages. -/
theorem read_rows1 (t : Fin cfg0.N) (A : FVec Ideal S100000x128 .f32) (p : Fin 2000) (a : Fin 128) :
    ((cfg0.win 1).blk t).view.read (Elt Ideal) A (ix2 p a) = A (ix2 (arow t p) a) := by
  have hi := idx_facts t
  rw [View.read_apply]
  show A _ = A _
  congr 1
  funext ax
  apply Fin.ext
  match ax with
  | ⟨0, _⟩ => show win0_1.index t (0 : Fin 2) * 2000 + 1 * p.val = 2000 * t.val + p.val; rw [hi.2.2.1]; omega
  | ⟨1, _⟩ => show win0_1.index t (1 : Fin 2) * 128 + 1 * a.val = a.val; rw [hi.2.2.2.1]; omega

/-- The graph-factor window's block at point `t`, row `p`: entry `2000 t + p` of the column it stages. -/
theorem read_rows2 (t : Fin cfg0.N) (A : FVec Ideal S100000x1 .f32) (p : Fin 2000) (a : Fin 1) :
    ((cfg0.win 2).blk t).view.read (Elt Ideal) A (ix2 p a) = A (ix2 (arow t p) a) := by
  have hi := idx_facts t
  rw [View.read_apply]
  show A _ = A _
  congr 1
  funext ax
  apply Fin.ext
  match ax with
  | ⟨0, _⟩ => show win0_2.index t (0 : Fin 2) * 2000 + 1 * p.val = 2000 * t.val + p.val; rw [hi.2.2.2.2.1]; omega
  | ⟨1, _⟩ => show win0_2.index t (1 : Fin 2) * 1 + 1 * a.val = a.val; rw [hi.2.2.2.2.2.1]; omega

/-- The first weight window's block at any point is its whole array. -/
theorem read_whole3 (t : Fin cfg0.N) (A : FVec Ideal S128x256 .f32) : ((cfg0.win 3).blk t).view.read (Elt Ideal) A = A := by
  have hi := idx_facts t
  funext y
  rw [View.read_apply]
  show A _ = A y
  congr 1
  funext ax
  apply Fin.ext
  match ax with
  | ⟨0, _⟩ => show win0_3.index t (0 : Fin 2) * 128 + 1 * (y 0).val = (y 0).val; rw [hi.2.2.2.2.2.2.1]; omega
  | ⟨1, _⟩ => show win0_3.index t (1 : Fin 2) * 256 + 1 * (y 1).val = (y 1).val; rw [hi.2.2.2.2.2.2.2.1]; omega

/-- The first bias window's block at any point is its whole array. -/
theorem read_whole4 (t : Fin cfg0.N) (A : FVec Ideal S256 .f32) : ((cfg0.win 4).blk t).view.read (Elt Ideal) A = A := by
  have hi := idx_facts t
  funext y
  rw [View.read_apply]
  show A _ = A y
  congr 1
  funext ax
  apply Fin.ext
  match ax with
  | ⟨0, _⟩ => show win0_4.index t (0 : Fin 1) * 256 + 1 * (y 0).val = (y 0).val; rw [hi.2.2.2.2.2.2.2.2.1]; omega

/-- The second weight window's block at any point is its whole array. -/
theorem read_whole5 (t : Fin cfg0.N) (A : FVec Ideal S256x128 .f32) : ((cfg0.win 5).blk t).view.read (Elt Ideal) A = A := by
  have hi := idx_facts t
  funext y
  rw [View.read_apply]
  show A _ = A y
  congr 1
  funext ax
  apply Fin.ext
  match ax with
  | ⟨0, _⟩ => show win0_5.index t (0 : Fin 2) * 256 + 1 * (y 0).val = (y 0).val; rw [hi.2.2.2.2.2.2.2.2.2.1]; omega
  | ⟨1, _⟩ => show win0_5.index t (1 : Fin 2) * 128 + 1 * (y 1).val = (y 1).val; rw [hi.2.2.2.2.2.2.2.2.2.2.1]; omega

/-- The second bias window's block at any point is its whole array. -/
theorem read_whole6 (t : Fin cfg0.N) (A : FVec Ideal S128 .f32) : ((cfg0.win 6).blk t).view.read (Elt Ideal) A = A := by
  have hi := idx_facts t
  funext y
  rw [View.read_apply]
  show A _ = A y
  congr 1
  funext ax
  apply Fin.ext
  match ax with
  | ⟨0, _⟩ => show win0_6.index t (0 : Fin 1) * 128 + 1 * (y 0).val = (y 0).val; rw [hi.2.2.2.2.2.2.2.2.2.2.2.1]; omega

/-- The scale window's block at any point is its whole array. -/
theorem read_whole7 (t : Fin cfg0.N) (A : FVec Ideal S128 .f32) : ((cfg0.win 7).blk t).view.read (Elt Ideal) A = A := by
  have hi := idx_facts t
  funext y
  rw [View.read_apply]
  show A _ = A y
  congr 1
  funext ax
  apply Fin.ext
  match ax with
  | ⟨0, _⟩ => show win0_7.index t (0 : Fin 1) * 128 + 1 * (y 0).val = (y 0).val; rw [hi.2.2.2.2.2.2.2.2.2.2.2.2.1]; omega

/-- The shift window's block at any point is its whole array. -/
theorem read_whole8 (t : Fin cfg0.N) (A : FVec Ideal S128 .f32) : ((cfg0.win 8).blk t).view.read (Elt Ideal) A = A := by
  have hi := idx_facts t
  funext y
  rw [View.read_apply]
  show A _ = A y
  congr 1
  funext ax
  apply Fin.ext
  match ax with
  | ⟨0, _⟩ => show win0_8.index t (0 : Fin 1) * 128 + 1 * (y 0).val = (y 0).val; rw [hi.2.2.2.2.2.2.2.2.2.2.2.2.2.1]; omega

/-- Where the result window's block at point `t` puts its entry `y`: row `2000 t + y₀`, column `y₁`. -/
theorem read_rows9 (t : Fin cfg0.N) (K : FVec Ideal S100000x128 .f32) :
    ((cfg0.win 9).blk t).view.read (Elt Ideal) K
      = fun y : S2000x128.Idx => K (ix2 (arow t ⟨(y 0).val, (y 0).isLt⟩) (⟨(y 1).val, (y 1).isLt⟩ : Fin 128)) := by
  have hi := idx_facts t
  funext y
  rw [View.read_apply]
  show K _ = K _
  congr 1
  funext ax
  apply Fin.ext
  match ax with
  | ⟨0, _⟩ => show win0_9.index t (0 : Fin 2) * 2000 + 1 * (y 0).val = 2000 * t.val + (y 0).val; rw [hi.2.2.2.2.2.2.2.2.2.2.2.2.2.2.1]; omega
  | ⟨1, _⟩ => show win0_9.index t (1 : Fin 2) * 128 + 1 * (y 1).val = (y 1).val; rw [hi.2.2.2.2.2.2.2.2.2.2.2.2.2.2.2]; omega

/-! ## A block of rows goes to the same rows of the result -/

/-- If three blocks are rows `2000 t + p` of three arrays, what the body stores from them is rows `2000 t + p` of the
    whole-array function of those arrays. -/
theorem block_core (t : Fin cfg0.N) (A0 A1 : FVec Ideal S100000x128 .f32) (A2 : FVec Ideal S100000x1 .f32)
    (W1 : FVec Ideal S128x256 .f32) (b1 : FVec Ideal S256 .f32) (W2 : FVec Ideal S256x128 .f32) (b2 g be : FVec Ideal S128 .f32)
    (x0 x1 : FVec Ideal S2000x128 .f32) (x2 : FVec Ideal S2000x1 .f32)
    (h0 : ∀ (p : Fin 2000) (a : Fin 128), x0 (ix2 p a) = A0 (ix2 (arow t p) a))
    (h1 : ∀ (p : Fin 2000) (a : Fin 128), x1 (ix2 p a) = A1 (ix2 (arow t p) a))
    (h2 : ∀ (p : Fin 2000) (u : Fin 1), x2 (ix2 p u) = A2 (ix2 (arow t p) u)) :
    k0_pay1 (F := Ideal) (k0_pay2 (F := Ideal) x0 W1 b1 W2 b2 g) be x2 x1
      = fun y : S2000x128.Idx => wholeOut A0 A1 A2 W1 b1 W2 b2 g be (ix2 (arow t ⟨(y 0).val, (y 0).isLt⟩) (⟨(y 1).val, (y 1).isLt⟩ : Fin 128)) := by
  funext y
  obtain ⟨p, q, rfl⟩ : ∃ (p : Fin 2000) (q : Fin 128), y = ix2 p q := ⟨y 0, y 1, eq_ix2 y⟩
  refine (stored_apply x0 x1 x2 W1 b1 W2 b2 g be p q).trans ?_
  have e0 : (fun a => x0 (ix2 p a)) = fun a => A0 (ix2 (arow t p) a) := funext fun a => h0 p a
  rw [e0, h2 p 0, h1 p q]
  rfl

/-! ## What each point writes back, the cover, the array -/

/-- The result array: the whole-array function at the arrays as the region finds them. -/
abbrev kernelOut (c : Dev nD) : Buf (Elt Ideal) ((c : Thread nD τ).loc main_v26) :=
  wholeOut (V m c main_v10) (V m c main_arg0) (V m c main_v25) (V m c main_arg5) (V m c main_arg6) (V m c main_arg7)
    (V m c main_arg8) (V m c main_arg9) (V m c main_arg10)

/-- WHAT POINT `t` WRITES BACK is block `t` of the result. -/
theorem flushed_eq (c : Dev nD) (t : Fin cfg0.N) :
    (dats m 0 c).flushed 9 t = ((cfg0.win 9).blk t).view.read (Elt Ideal) (kernelOut m c) := by
  rw [flushed9]
  unfold out0_9
  rw [View.canon_unit_zero hz2]
  simp only [View.ld_unit_zero (S := S2000x128) hz2, View.ld_unit_zero (S := S128x256) hz2, View.ld_unit_zero (S := S256x128) hz2,
    View.ld_unit_zero (S := S2000x1) hz2, View.ld_unit_zero (S := S256) hz1, View.ld_unit_zero (S := S128) hz1]
  unfold iblk
  rw [read_whole3, read_whole4, read_whole5, read_whole6, read_whole7, read_whole8, read_rows9,
    block_core t _ _ _ _ _ _ _ _ _ _ _ _ (read_rows0 t _) (read_rows1 t _) (read_rows2 t _)]
  rfl
/-- An index of the array is in point `t`'s block iff each coordinate is in the block's range on its axis. -/
theorem mem_blk (t : Fin cfg0.N) (i : S100000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v26).slice (win0_9.rect t)).set ↔ _
  rw [View.set_slice_whole, Rect.mem_set_unit]
  exact Iff.rfl

/-- Every index is in some point's block: row `r` lies in the block of point `r / 2000`. -/
theorem cover (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, lt_of_lt_of_eq (show (i 0).val / 2000 < 50 by omega) N_0.symm⟩, rfl⟩
  have hi := idx_facts t
  refine ⟨t, flush0_9 t, ?_⟩
  rw [mem_blk]
  intro a
  match a with
  | ⟨0, _⟩ =>
    show win0_9.index t (0 : Fin 2) * 2000 ≤ (i 0).val ∧ (i 0).val < win0_9.index t (0 : Fin 2) * 2000 + 2000
    rw [hi.2.2.2.2.2.2.2.2.2.2.2.2.2.2.1, ht]; omega
  | ⟨1, _⟩ =>
    show win0_9.index t (1 : Fin 2) * 128 ≤ (i 1).val ∧ (i 1).val < win0_9.index t (1 : Fin 2) * 128 + 128
    rw [hi.2.2.2.2.2.2.2.2.2.2.2.2.2.2.2]; omega

/-- So the result array ends as the whole-array function of the arrays as the region finds them. -/
theorem final (c : Dev nD) : (dats m 0 c).arrAt 9 cfg0.N = kernelOut m c :=
  (dats m 0 c).arrAt_eq_of_cover 9 (kernelOut m c) (fun t _ => flushed_eq m c t) (fun i => cover i)

/-- The kernel's run, read: the result array at that function, the arguments unchanged. -/
theorem run : θ_run defs (onTc (τ := τ) (main (F := Ideal))) ⟨m, fun _ => 0, ρ⟩ fun r => ∀ c : Dev nD,
      r.2.mem ((c : Thread nD τ).loc main_v26) = kernelOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2⟩) (run_blocks m ρ)

end Cert.GnnKernelBlocks

end
-- ==== Proof.RefRow.lean ====
/-
  The reference's result is the whole-array function of its own aggregate and its own column of graph factors.

  Read one operation at a time at the entry `(r, j)`: the two matrix products are sums over the contracted axis, the two
  row sums start from the zero word (which is the real zero, so it drops), a bias or a scale laid along the rows is read at
  its column, a keepdims column is read at its row. What is left is the row function of Proof/RowSpec.lean at row `r` of the
  aggregate. The gather, the two segment sums and the count are not opened: the aggregate and the column enter as they are.
-/
import proofs.«135149_j29068338659622_1_alg».proof.Proof.Gen.ReferenceIdeal.Read
import proofs.«135149_j29068338659622_1_alg».proof.Proof.ArraySpec
import Idealize.ShloMosaic.PureOps.Ideal.Laws
import Idealize.ShloMosaic.Lib.ValueIdx

noncomputable section

namespace Cert.GnnRefRow

open Idealize.ShloMosaic Idealize.ShloMosaic.ValueIdx Cert.ReferenceIdeal Cert.ReferenceIdeal.Read Cert.GnnRow

/-! ## Where each operation reads its operand, at `(r, j)` -/

theorem e_l11 (r : Fin 100000) (k : Fin 256) (a : Fin 128) : lidx_main_v11 (ix2 r k) a = ix2 r a := funext fun ax => by match ax with | ⟨0, _⟩ => rfl | ⟨1, _⟩ => rfl
theorem e_r11 (r : Fin 100000) (k : Fin 256) (a : Fin 128) : ridx_main_v11 (ix2 r k) a = ix2 a k := funext fun ax => by match ax with | ⟨0, _⟩ => rfl | ⟨1, _⟩ => rfl
theorem e_12_13 (r : Fin 100000) (k : Fin 256) : idx_main_v12 (idx_main_v13 (ix2 r k)) = ix1 k := funext fun ax => by match ax with | ⟨0, _⟩ => rfl
theorem e_l16 (r : Fin 100000) (j : Fin 128) (k : Fin 256) : lidx_main_v16 (ix2 r j) k = ix2 r k := funext fun ax => by match ax with | ⟨0, _⟩ => rfl | ⟨1, _⟩ => rfl
theorem e_r16 (r : Fin 100000) (j : Fin 128) (k : Fin 256) : ridx_main_v16 (ix2 r j) k = ix2 k j := funext fun ax => by match ax with | ⟨0, _⟩ => rfl | ⟨1, _⟩ => rfl
theorem e_17_18 (r : Fin 100000) (j : Fin 128) : idx_main_v17 (idx_main_v18 (ix2 r j)) = ix1 j := funext fun ax => by match ax with | ⟨0, _⟩ => rfl
theorem e_20_21 (r : Fin 100000) (u : Fin 1) (k : Fin 128) : idx_main_v20 (idx_main_v21 (ix2 r u)) k = ix2 r k := funext fun ax => by match ax with | ⟨0, _⟩ => rfl | ⟨1, _⟩ => rfl
theorem e_27_28 (r : Fin 100000) (u : Fin 1) (k : Fin 128) : idx_main_v27 (idx_main_v28 (ix2 r u)) k = ix2 r k := funext fun ax => by match ax with | ⟨0, _⟩ => rfl | ⟨1, _⟩ => rfl
theorem e_24 (r : Fin 100000) (j : Fin 128) : idx_main_v24 (ix2 r j) = ix2 r (0 : Fin 1) := funext fun ax => by match ax with | ⟨0, _⟩ => rfl | ⟨1, _⟩ => rfl
theorem e_31 (r : Fin 100000) (j : Fin 128) : idx_main_v31 (ix2 r j) = ix2 r (0 : Fin 1) := funext fun ax => by match ax with | ⟨0, _⟩ => rfl | ⟨1, _⟩ => rfl
theorem e_36 (r : Fin 100000) (j : Fin 128) : idx_main_v36 (ix2 r j) = ix2 r (0 : Fin 1) := funext fun ax => by match ax with | ⟨0, _⟩ => rfl | ⟨1, _⟩ => rfl
theorem e_59 (r : Fin 100000) (j : Fin 128) : idx_main_v59 (ix2 r j) = ix2 r (0 : Fin 1) := funext fun ax => by match ax with | ⟨0, _⟩ => rfl | ⟨1, _⟩ => rfl
theorem e_38_39 (r : Fin 100000) (j : Fin 128) : idx_main_v38 (idx_main_v39 (ix2 r j)) = ix1 j := funext fun ax => by match ax with | ⟨0, _⟩ => rfl
theorem e_41_42 (r : Fin 100000) (j : Fin 128) : idx_main_v41 (idx_main_v42 (ix2 r j)) = ix1 j := funext fun ax => by match ax with | ⟨0, _⟩ => rfl

/-! ## The dense chain at `(r, j)` -/

variable (x0 : (⟨S100000x128, .f32⟩ : BufTy).Contents (Elt Ideal)) (x1 : (⟨S800000x128, .f32⟩ : BufTy).Contents (Elt Ideal))
  (x2 x3 : (⟨S800000, .i32⟩ : BufTy).Contents (Elt Ideal)) (x4 : (⟨S100000, .i32⟩ : BufTy).Contents (Elt Ideal))
  (x5 : (⟨S128x256, .f32⟩ : BufTy).Contents (Elt Ideal)) (x6 : (⟨S256, .f32⟩ : BufTy).Contents (Elt Ideal))
  (x7 : (⟨S256x128, .f32⟩ : BufTy).Contents (Elt Ideal)) (x8 x9 x10 : (⟨S128, .f32⟩ : BufTy).Contents (Elt Ideal))

/-- The rectified hidden layer at `(r, k)`. -/
theorem ref_hidden (r : Fin 100000) (k : Fin 256) :
    val_main_v15 (F := Ideal) x0 x1 x2 x3 x5 x6 (ix2 r k) = hidden (fun a => val_main_v10 (F := Ideal) x0 x1 x2 x3 (ix2 r a)) x5 x6 k := by
  rw [val_main_v15_apply, val_main_v14_apply, val_main_v11_apply, val_main_v13_apply, val_main_v12_apply,
    val_main_call0_v0_apply, val_main_call0_cst_apply]
  generalize val_main_v10 (F := Ideal) x0 x1 x2 x3 = agg
  simp only [e_l11, e_r11, e_12_13]
  rfl

/-- The perceptron output at `(r, j)`. -/
theorem ref_lin (r : Fin 100000) (j : Fin 128) :
    val_main_v19 (F := Ideal) x0 x1 x2 x3 x5 x6 x7 x8 (ix2 r j) = lin (fun a => val_main_v10 (F := Ideal) x0 x1 x2 x3 (ix2 r a)) x5 x6 x7 x8 j := by
  rw [val_main_v19_apply, val_main_v16_apply, val_main_v18_apply, val_main_v17_apply]
  simp only [e_l16, e_r16, e_17_18, ref_hidden]
  generalize val_main_v10 (F := Ideal) x0 x1 x2 x3 = agg
  rfl

/-- The mean column at row `r`. -/
theorem ref_mean (r : Fin 100000) (u : Fin 1) :
    val_main_v23 (F := Ideal) x0 x1 x2 x3 x5 x6 x7 x8 (ix2 r u) = mean (fun j => val_main_v19 (F := Ideal) x0 x1 x2 x3 x5 x6 x7 x8 (ix2 r j)) := by
  rw [val_main_v23_apply, val_main_v21_apply, val_main_v20_apply, val_main_v22_apply, val_main_cst_2_apply, val_main_cst_1_apply]
  generalize val_main_v19 (F := Ideal) x0 x1 x2 x3 x5 x6 x7 x8 = h
  simp only [e_20_21]
  show Ideal.div (Ideal.ofBits .f32 0x00000000#32 + ∑ k : Fin 128, h (ix2 r k)) (Ideal.ofBits .f32 0x43000000#32) = _
  rw [Ideal.ofBits_zero_f32, zero_add]
  rfl

/-- The centered output at `(r, j)` (the operand of the square). -/
theorem ref_centered (r : Fin 100000) (j : Fin 128) :
    val_main_v25 (F := Ideal) x0 x1 x2 x3 x5 x6 x7 x8 (ix2 r j) = centered (fun j => val_main_v19 (F := Ideal) x0 x1 x2 x3 x5 x6 x7 x8 (ix2 r j)) j := by
  rw [val_main_v25_apply, val_main_v24_apply, e_24, ref_mean]
  generalize val_main_v19 (F := Ideal) x0 x1 x2 x3 x5 x6 x7 x8 = h
  rfl

/-- The centered output at `(r, j)` (the operand of the scale). -/
theorem ref_centered' (r : Fin 100000) (j : Fin 128) :
    val_main_v32 (F := Ideal) x0 x1 x2 x3 x5 x6 x7 x8 (ix2 r j) = centered (fun j => val_main_v19 (F := Ideal) x0 x1 x2 x3 x5 x6 x7 x8 (ix2 r j)) j := by
  rw [val_main_v32_apply, val_main_v31_apply, e_31, ref_mean]
  generalize val_main_v19 (F := Ideal) x0 x1 x2 x3 x5 x6 x7 x8 = h
  rfl

/-- The variance column at row `r`. -/
theorem ref_variance (r : Fin 100000) (u : Fin 1) :
    val_main_v30 (F := Ideal) x0 x1 x2 x3 x5 x6 x7 x8 (ix2 r u) = variance (fun j => val_main_v19 (F := Ideal) x0 x1 x2 x3 x5 x6 x7 x8 (ix2 r j)) := by
  have hs : ∀ k : Fin 128, val_main_v26 (F := Ideal) x0 x1 x2 x3 x5 x6 x7 x8 (idx_main_v27 (idx_main_v28 (ix2 r u)) k)
      = centered (fun j => val_main_v19 (F := Ideal) x0 x1 x2 x3 x5 x6 x7 x8 (ix2 r j)) k * centered (fun j => val_main_v19 (F := Ideal) x0 x1 x2 x3 x5 x6 x7 x8 (ix2 r j)) k := by
    intro k
    rw [e_27_28, val_main_v26_apply, ref_centered]
    generalize val_main_v19 (F := Ideal) x0 x1 x2 x3 x5 x6 x7 x8 = h
    rfl
  rw [val_main_v30_apply, val_main_v28_apply, val_main_v27_apply, val_main_v29_apply, val_main_cst_4_apply, val_main_cst_3_apply,
    Finset.sum_congr rfl fun k _ => hs k]
  generalize val_main_v19 (F := Ideal) x0 x1 x2 x3 x5 x6 x7 x8 = h
  show Ideal.div (Ideal.ofBits .f32 0x00000000#32 + ∑ k : Fin 128, centered (fun j => h (ix2 r j)) k * centered (fun j => h (ix2 r j)) k) (Ideal.ofBits .f32 0x43000000#32) = _
  rw [Ideal.ofBits_zero_f32, zero_add]
  rfl
/-- THE REFERENCE AT AN ENTRY: the row function of row `r` of its aggregate, with its graph factor and the node's feature. -/
theorem ref_apply (r : Fin 100000) (j : Fin 128) :
    val_main_v62 (F := Ideal) x0 x1 x2 x3 x4 x5 x6 x7 x8 x9 x10 (ix2 r j)
      = rowOut (fun a => val_main_v10 (F := Ideal) x0 x1 x2 x3 (ix2 r a)) x5 x6 x7 x8 x9 x10 (val_main_v58 (F := Ideal) x4 (ix2 r (0 : Fin 1))) (x0 (ix2 r j)) j := by
  rw [val_main_v62_apply, val_main_v61_apply, val_main_v60_apply, val_main_v59_apply, val_main_call1_v0_apply, val_main_call1_cst_apply,
    val_main_v43_apply, val_main_v42_apply, val_main_v41_apply, val_main_v40_apply, val_main_v39_apply, val_main_v38_apply,
    val_main_v37_apply, val_main_v36_apply, val_main_v35_apply, val_main_v34_apply, val_main_v33_apply, val_main_cst_5_apply,
    ref_centered', e_59, e_36, e_38_39, e_41_42, ref_variance]
  have hl : (fun j => val_main_v19 (F := Ideal) x0 x1 x2 x3 x5 x6 x7 x8 (ix2 r j)) = lin (fun a => val_main_v10 (F := Ideal) x0 x1 x2 x3 (ix2 r a)) x5 x6 x7 x8 := funext fun j => ref_lin x0 x1 x2 x3 x5 x6 x7 x8 r j
  rw [hl]
  generalize val_main_v10 (F := Ideal) x0 x1 x2 x3 = agg
  generalize val_main_v58 (F := Ideal) x4 = fac
  rfl

/-- So the reference's result is the whole-array function of its aggregate, the node features, its column of graph
    factors and the weights. -/
theorem ref_whole :
    val_main_v62 (F := Ideal) x0 x1 x2 x3 x4 x5 x6 x7 x8 x9 x10
      = wholeOut (val_main_v10 (F := Ideal) x0 x1 x2 x3) x0 (val_main_v58 (F := Ideal) x4) x5 x6 x7 x8 x9 x10 := by
  funext i
  obtain ⟨r, j, rfl⟩ : ∃ (r : Fin 100000) (j : Fin 128), i = ix2 r j := ⟨i 0, i 1, eq_ix2 i⟩
  rw [ref_apply, wholeOut_apply]

end Cert.GnnRefRow

end
-- ==== Proof.HostArrays.lean ====
/-
  The two arrays the kernel's own host operations write before the region are the reference's.

  Before its one region the kernel's program gathers the source nodes' features, adds the edge features, sums the messages
  into their destination nodes, counts the nodes of each graph, takes one over the root of the count (at least one) and reads
  that factor back per node as a column. The reference does the same operations on the same arguments. So the aggregate the
  region stages is the reference's aggregate, and the column of graph factors is the reference's column: each pair is one
  term, and neither the gather nor the two sums are ever opened.
-/
import proofs.«135149_j29068338659622_1_alg».proof.Proof.Gen.KernelIdeal.Frame
import proofs.«135149_j29068338659622_1_alg».proof.Proof.Gen.ReferenceIdeal.Read
import Idealize.ShloMosaic.Lib.StableHlo.Run

noncomputable section

namespace Cert.GnnHostArrays

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The aggregate as the region finds it is the reference's aggregate of the same four arguments. -/
theorem agg_eq (c : Dev nD) :
    (V m c main_v10 : FVec Ideal S100000x128 .f32)
      = Cert.ReferenceIdeal.Read.val_main_v10 (F := Ideal) (m ((c : Thread nD τ).loc main_arg0)) (m ((c : Thread nD τ).loc main_arg1)) (m ((c : Thread nD τ).loc main_arg2)) (m ((c : Thread nD τ).loc main_arg3)) := by
  dsimp only [V, hostOps0]
  after_results_simp <;> rfl

/-- The column of graph factors as the region finds it is the reference's column of the same graph assignment. -/
theorem factor_eq (c : Dev nD) :
    (V m c main_v25 : FVec Ideal S100000x1 .f32)
      = Cert.ReferenceIdeal.Read.val_main_v58 (F := Ideal) (m ((c : Thread nD τ).loc main_arg4)) := by
  dsimp only [V, hostOps0]
  after_results_simp <;> rfl

end Cert.GnnHostArrays

end
-- ==== Proof.lean ====
/-
  The fused graph-network block against its plain reference, over the extended reals.

  Both programs first build, with the same host operations on the same arguments, the aggregated messages
  `agg[n] = Σ_{e : dst e = n} (node_feats[src e] + edge_feats[e])` and the per-node graph factor
  `s[n] = rsqrt (max (count of n's graph) 1)`. The kernel then runs one region over 50 blocks of 2000 rows: on each row, a
  two-layer perceptron (two matrix products with biases, a rectifier between), a layer normalisation over the 128 features,
  the scale by `s`, a rectifier and the residual `+ node_feats`. The reference does the same on the whole `[100000, 128]`
  array at once.

  Over the extended reals a change of float format is the identity, a matrix product into a zero accumulator and a lane sum
  are plain finite sums, and the kernel's division and inverse root are the host's. Every literal (zero, 128, the ε of the
  normalisation) is the same word on both sides. So both results are one function of the arguments, entry by entry: the
  row function of Proof/RowSpec.lean at each node's row. No law beyond reading the sums is needed, so the precondition is
  never opened.

  * Proof/KernelRow.lean: the block the body stores, at an entry, is the row function of the block's row.
  * Proof/KernelBlocks.lean: block `t` is rows `2000 t …` of the arrays, the blocks cover the array, the kernel's run.
  * Proof/RefRow.lean: the reference's result, at an entry, is the row function of its aggregate's row.
  * Proof/HostArrays.lean: the aggregate and the factor column the region stages are the reference's.

  The frames are the generated ones; the ideal pass rewrote nothing, so `preserves` has no conjunct.
-/
import proofs.«135149_j29068338659622_1_alg».proof.Defs
import proofs.«135149_j29068338659622_1_alg».proof.Proof.Gen.Kernel
import proofs.«135149_j29068338659622_1_alg».proof.Proof.Gen.Kernel.Skeleton
import proofs.«135149_j29068338659622_1_alg».proof.Proof.Gen.Kernel.Launch
import proofs.«135149_j29068338659622_1_alg».proof.Proof.Gen.Kernel.Points
import proofs.«135149_j29068338659622_1_alg».proof.Proof.Gen.Kernel.Frame
import proofs.«135149_j29068338659622_1_alg».proof.Proof.Gen.KernelIdeal
import proofs.«135149_j29068338659622_1_alg».proof.Proof.Gen.KernelIdeal.Skeleton
import proofs.«135149_j29068338659622_1_alg».proof.Proof.Gen.KernelIdeal.Launch
import proofs.«135149_j29068338659622_1_alg».proof.Proof.Gen.KernelIdeal.Points
import proofs.«135149_j29068338659622_1_alg».proof.Proof.Gen.KernelIdeal.Frame
import proofs.«135149_j29068338659622_1_alg».proof.Proof.Gen.ReferenceIdeal
import proofs.«135149_j29068338659622_1_alg».proof.Proof.Gen.Pre_finite_inputs
import proofs.«135149_j29068338659622_1_alg».proof.Proof.Gen.KernelIdeal.Value
import proofs.«135149_j29068338659622_1_alg».proof.Proof.Gen.ReferenceIdeal.Run
import proofs.«135149_j29068338659622_1_alg».proof.Proof.Gen.ReferenceIdeal.Read
import proofs.«135149_j29068338659622_1_alg».proof.Proof.KernelBlocks
import proofs.«135149_j29068338659622_1_alg».proof.Proof.RefRow
import proofs.«135149_j29068338659622_1_alg».proof.Proof.HostArrays
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the whole-array function of the arguments: the kernel's array block by block
    (Proof/KernelBlocks.lean), the reference's by its operations read at an entry (Proof/RefRow.lean), over the same aggregate
    and the same column of graph factors (Proof/HostArrays.lean). -/
theorem algebraic : Cert.algebraic_KernelIdeal_ReferenceIdeal := by
  intro m ρ m' ρ' _ hagree
  refine ⟨fun c => Cert.GnnKernelBlocks.kernelOut m c, Cert.GnnKernelBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v62_eq, a0, a1, a2, a3, a4, a5, a6, a7, a8, a9, a10, Cert.GnnRefRow.ref_whole]
  show _ = Cert.GnnRow.wholeOut (Cert.KernelIdeal.Gen.V m c Cert.KernelIdeal.main_v10) (Cert.KernelIdeal.Gen.V m c Cert.KernelIdeal.main_arg0)
    (Cert.KernelIdeal.Gen.V m c Cert.KernelIdeal.main_v25) (Cert.KernelIdeal.Gen.V m c Cert.KernelIdeal.main_arg5)
    (Cert.KernelIdeal.Gen.V m c Cert.KernelIdeal.main_arg6) (Cert.KernelIdeal.Gen.V m c Cert.KernelIdeal.main_arg7)
    (Cert.KernelIdeal.Gen.V m c Cert.KernelIdeal.main_arg8) (Cert.KernelIdeal.Gen.V m c Cert.KernelIdeal.main_arg9)
    (Cert.KernelIdeal.Gen.V m c Cert.KernelIdeal.main_arg10)
  rw [Cert.GnnHostArrays.agg_eq m c, Cert.GnnHostArrays.factor_eq m c, Cert.KernelIdeal.Gen.V_main_arg0 m c,
    Cert.KernelIdeal.Gen.V_main_arg5 m c, Cert.KernelIdeal.Gen.V_main_arg6 m c, Cert.KernelIdeal.Gen.V_main_arg7 m c,
    Cert.KernelIdeal.Gen.V_main_arg8 m c, Cert.KernelIdeal.Gen.V_main_arg9 m c, Cert.KernelIdeal.Gen.V_main_arg10 m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
